-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S64x40 .f32) (main_arg7 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S128x64 .f32) (main_arg4 : FVec F S64 .f32) (main_arg5 : FVec F S64x40 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x40, .f32⟩
  | .hbm, ⟨58, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x40, .f32⟩
  | .local _ .vmem, ⟨14, _⟩ => ⟨S64x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S40_S1x40 : S40.ShapeCasts S1x40
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S1x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  The two graph-convolution layers, one row at a time, over the extended reals.

  A layer takes, for a node r, the row a of its aggregated neighbour features and the row x of its own features (K numbers
  each) to the row  z_c = (Σ_k a_k · Wl[k,c]) + (Σ_k x_k · Wr[k,c]) + b_c  of C numbers (`pre`). The first layer follows it
  with the rectifier max(·, 0) (`conv1`); the second with the logarithm of the softmax of the row (`conv2`):
  with M the maximum of the row taken from the start word's value,  (z_c − M) − log Σ_j exp(z_j − M)  (`logSoftmaxRow`).
  A layer acts on every node's row by itself, which is why a program may compute it over all the rows at once or over
  blocks of rows.

  The aggregated row is the sum over the node's incoming edges divided by the node's in-degree clamped below at one.
  One program multiplies the sum by the reciprocal 1/d, the other divides it by d; on the extended reals both are the
  product with the inverse of d as soon as d is not zero (`mul_div_one`), and the maximum of anything with a positive
  number is not zero (`max_ne_zero`).
-/
import Idealize.ShloMosaic.PureOps.Ideal.Laws
import Idealize.ShloMosaic.Lib.ValueIdx
import Idealize.ShloMosaic.Lib.ValueLayout
import Idealize.ShloMosaic.Lib.Pipeline.Value
import Mathlib.Data.Finset.Fold

noncomputable section

open scoped BigOperators

namespace Cert.Sage

open Idealize.ShloMosaic Idealize.ShloMosaic.ValueIdx

/-- Row r of an [R, K] array. -/
def row {R K : ℕ} (A : FVec Ideal ⟨2, ![R, K]⟩ .f32) (r : Fin R) : Fin K → EReal := fun k => A (ix2 r k)

/-- A length-C vector as a function of the column. -/
def vec {C : ℕ} (b : FVec Ideal ⟨1, ![C]⟩ .f32) : Fin C → EReal := fun c => b (ix1 c)

/-- One node's row before the nonlinearity:  z_c = (Σ_k a_k · Wl[k,c]) + (Σ_k x_k · Wr[k,c]) + b_c . -/
def pre {K C : ℕ} (Wl Wr : FVec Ideal ⟨2, ![K, C]⟩ .f32) (b : Fin C → EReal) (a x : Fin K → EReal) : Fin C → EReal :=
  fun c => (∑ k : Fin K, a k * Wl (ix2 k c)) + (∑ k : Fin K, x k * Wr (ix2 k c)) + b c

/-- The first layer over all rows: the rectifier of `pre`. -/
def conv1 {R K C : ℕ} (A X : FVec Ideal ⟨2, ![R, K]⟩ .f32) (Wl Wr : FVec Ideal ⟨2, ![K, C]⟩ .f32) (b : Fin C → EReal) :
    FVec Ideal ⟨2, ![R, C]⟩ .f32 :=
  fun i => max (pre Wl Wr b (row A (i 0)) (row X (i 0)) (i 1)) 0

/-- The maximum of a row, folded from the value of the word for minus infinity. -/
def rowMax {C : ℕ} (z : Fin C → EReal) : EReal :=
  (Finset.univ : Finset (Fin C)).fold max (Ideal.ofBits .f32 0xFF800000#32) z

/-- The logarithm of the softmax of a row, shifted by the row's maximum. -/
def logSoftmaxRow {C : ℕ} (z : Fin C → EReal) : Fin C → EReal :=
  fun c => (z c - rowMax z) - Ideal.log (∑ j : Fin C, Ideal.exp (z j - rowMax z))

/-- The second layer over all rows: the log-softmax of `pre`. -/
def conv2 {R K C : ℕ} (A X : FVec Ideal ⟨2, ![R, K]⟩ .f32) (Wl Wr : FVec Ideal ⟨2, ![K, C]⟩ .f32) (b : Fin C → EReal) :
    FVec Ideal ⟨2, ![R, C]⟩ .f32 :=
  fun i => logSoftmaxRow (pre Wl Wr b (row A (i 0)) (row X (i 0))) (i 1)

/-- The maximum with the word for minus infinity in front changes nothing: the fold already starts from it. -/
theorem max_start_rowMax {C : ℕ} (z : Fin C → EReal) :
    max (Ideal.ofBits .f32 0xFF800000#32) (rowMax z) = rowMax z :=
  max_eq_right ((Finset.le_fold_max _).mpr (Or.inl le_rfl))

/-- Multiplying by the reciprocal of a nonzero extended real is dividing by it. -/
theorem mul_div_one (x d : EReal) (hd : d ≠ 0) : x * Ideal.div 1 d = Ideal.div x d := by
  unfold Ideal.div
  rw [if_neg hd, if_neg hd, one_mul]

/-- The word 0x3F800000 is the number one. -/
theorem ofBits_one : Ideal.ofBits .f32 0x3F800000#32 = 1 := by
  simp [Ideal.ofBits, Ideal.ieee]
  exact_mod_cast (by norm_num : (8388608 : ℝ) * (2 ^ 23)⁻¹ = 1)

/-- The maximum of anything with the number one (the word 0x3F800000) is not zero. -/
theorem max_one_ne_zero (x : EReal) : max x (Ideal.ofBits .f32 0x3F800000#32) ≠ 0 := by
  have h1 : (0 : EReal) < Ideal.ofBits .f32 0x3F800000#32 := by
    simp [Ideal.ofBits, Ideal.ieee]
    exact_mod_cast (by norm_num : (0 : ℝ) < 8388608 * (2 ^ 23)⁻¹)
  exact ne_of_gt (lt_of_lt_of_le h1 (le_max_right _ _))

/-- A length-N vector laid out as an [N, 1] column reads, at (n, u), the vector's entry n. -/
theorem column_apply {N : ℕ} {α : Type}
    (h1 : (⟨1, ![N]⟩ : Shape).BroadcastsInDim ⟨2, ![N, 1]⟩ (![0] : Fin 1 → Fin 2))
    (v : (⟨1, ![N]⟩ : Shape).Idx → α) (n : Fin N) (u : Fin 1) :
    broadcastInDim ⟨2, ![N, 1]⟩ ![0] h1 v (ix2 n u) = v (ix1 n) := by
  refine broadcastInDim_apply ![0] h1 v (ix2 n u) (ix1 n) fun a => ?_
  match a with
  | ⟨0, _⟩ =>
    show n.val = if N = 1 then 0 else n.val
    split
    · have := n.isLt; omega
    · rfl

/-- An [N, 1] column laid out over the D columns of an [N, D] array reads, at (n, k), the column's entry in row n. -/
theorem column_over_apply {N D : ℕ} {α : Type}
    (h2 : (⟨2, ![N, 1]⟩ : Shape).BroadcastsInDim ⟨2, ![N, D]⟩ (![0, 1] : Fin 2 → Fin 2))
    (v : (⟨2, ![N, 1]⟩ : Shape).Idx → α) (n : Fin N) (k : Fin D) :
    broadcastInDim ⟨2, ![N, D]⟩ ![0, 1] h2 v (ix2 n k) = v (ix2 n (0 : Fin 1)) := by
  refine broadcastInDim_apply ![0, 1] h2 v (ix2 n k) (ix2 n (0 : Fin 1)) fun a => ?_
  match a with
  | ⟨0, _⟩ =>
    show n.val = if N = 1 then 0 else n.val
    split
    · have := n.isLt; omega
    · rfl
  | ⟨1, _⟩ => exact (if_pos rfl).symm

/-- A length-N vector laid out as an [N, 1] column and then over the D columns of an [N, D] array reads, at (n, k),
    the vector's entry n. -/
theorem column_layout_apply {N D : ℕ} {α : Type}
    (h1 : (⟨1, ![N]⟩ : Shape).BroadcastsInDim ⟨2, ![N, 1]⟩ (![0] : Fin 1 → Fin 2))
    (h2 : (⟨2, ![N, 1]⟩ : Shape).BroadcastsInDim ⟨2, ![N, D]⟩ (![0, 1] : Fin 2 → Fin 2))
    (v : (⟨1, ![N]⟩ : Shape).Idx → α) (n : Fin N) (k : Fin D) :
    broadcastInDim ⟨2, ![N, D]⟩ ![0, 1] h2 (broadcastInDim ⟨2, ![N, 1]⟩ ![0] h1 v) (ix2 n k) = v (ix1 n) :=
  (column_over_apply h2 _ n k).trans (column_apply h1 v n 0)

end Cert.Sage

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.LibRowMax.lean ====
/-
  The maximum over the last axis of an [a, b] matrix, on the extended reals, read at row i: the fold of `max`, from the
  value of the start word, over the columns c of the matrix's entry at (i, c) — in any order, `max` being commutative
  and associative.
-/
import Idealize.ShloMosaic.PureOps.Ideal.Laws
import Idealize.ShloMosaic.Lib.ValueIdx

namespace Cert.LibRowMax

open Idealize.ShloMosaic Idealize.ShloMosaic.ValueIdx

/-- The row with the column coordinate put back is the entry (i, c). -/
theorem lift_row {a b : ℕ} (h : (⟨2, ![a, b]⟩ : Shape).Reduces [1] ⟨1, ![a]⟩) (i : Fin a) (c : Fin b) :
    h.lift (ix1 i) c = ix2 i c := by
  funext ax
  match ax with
  | ⟨0, _⟩ => rfl
  | ⟨1, _⟩ => rfl

/-- The row maximum at i, folded from the start word's value over the columns. -/
theorem rowMax_apply {a b : ℕ} (src : FVec Ideal (⟨2, ![a, b]⟩ : Shape) .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun c => src (ix2 i c)) := by
  refine (Ideal.multiReduction_maximumf_single src acc h hφ hacc (ix1 i)).trans ?_
  have e : (src ∘ h.lift (ix1 i)) = fun c : Fin b => src (ix2 i c) :=
    funext fun c => congrArg src (lift_row h i c)
  rw [e]
  rfl

end Cert.LibRowMax
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.KernelBody.lean ====
/-
  What each of the two kernels stores for one block of 5000 rows, read at an entry (p, q) of the block.

  The first kernel narrows its four operands to bf16 (the identity on the extended reals), takes the two products into
  zero accumulators, adds them, adds the bias row repeated over the rows, and takes the maximum with zero: at (p, q) that
  is the rectifier of `pre` of row p of the two feature blocks. The second kernel does the same up to the bias and then
  subtracts the row's maximum, exponentiates, sums the row, takes the logarithm and subtracts it: at (p, q) that is
  `logSoftmaxRow` of `pre` of row p. Neither depends on any other row of the block.
-/
import proofs.«166646_j46772193853511_1_alg».proof.Proof.Gen.KernelIdeal.Skeleton
import proofs.«166646_j46772193853511_1_alg».proof.Proof.Spec
import proofs.«166646_j46772193853511_1_alg».proof.Proof.LibDense
import proofs.«166646_j46772193853511_1_alg».proof.Proof.LibBiasRow
import proofs.«166646_j46772193853511_1_alg».proof.Proof.LibRowMax
import proofs.«166646_j46772193853511_1_alg».proof.Proof.LibKeepdimsColumn

noncomputable section

open scoped BigOperators

namespace Cert.KernelIdeal.Body

open Cert.KernelIdeal Cert.KernelIdeal.Gen Idealize.ShloMosaic Idealize.ShloMosaic.ValueIdx Cert.Sage

/-- The bias block, one row of C numbers, as a function of the column. -/
def biasRow {C : ℕ} (b : FVec Ideal ⟨2, ![1, C]⟩ .f32) : Fin C → EReal := fun c => b (ix2 (0 : Fin 1) c)

/-- The pre-activation as either kernel spells it — operands narrowed to bf16, two products into zeros added, the
    bias block's one row repeated over the rows and added — at (p, c): `pre` of row p. -/
theorem pre_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hbc : (⟨2, ![1, C]⟩ : Shape).Broadcasts ⟨2, ![R, C]⟩)
    (a x : FVec Ideal ⟨2, ![R, K]⟩ .f32) (wl wr : FVec Ideal ⟨2, ![K, C]⟩ .f32) (b : FVec Ideal ⟨2, ![1, C]⟩ .f32)
    (p : Fin R) (c : Fin C) :
    addf (addf (matmul d none (truncf .bf16 a hlt) (truncf .bf16 wl hlt) (constant ⟨2, ![R, C]⟩ .f32 0x00000000#32))
          (matmul d none (truncf .bf16 x hlt) (truncf .bf16 wr hlt) (constant ⟨2, ![R, C]⟩ .f32 0x00000000#32)))
        (broadcastTo ⟨2, ![R, C]⟩ b hbc) (ix2 p c)
      = pre wl wr (biasRow b) (row a p) (row x p) c := by
  rw [addf_apply, addf_apply, Cert.Dense.matmul_zero_plain_apply d h1 h2 h3 h4 h5 h6,
    Cert.Dense.matmul_zero_plain_apply d h1 h2 h3 h4 h5 h6, Cert.BiasRow.stretch_row_apply hbc b p c]
  rfl

/-- The first kernel's stored block at (p, q): the rectifier of the row's `pre`. -/
theorem pay0_apply (a x : Vec Ideal S5000x128 .f32) (wl wr : Vec Ideal S128x64 .f32) (b : Vec Ideal S1x64 .f32)
    (p : Fin 5000) (q : Fin 64) :
    k0_pay1 (F := Ideal) a x wl wr b (ix2 p q) = max (pre wl wr (biasRow b) (row a p) (row x p) q) 0 := by
  unfold k0_pay1
  rw [Cert.Dense.kernel_relu_apply, shapeCast_self, shapeCast_self, shapeCast_self]
  exact congrArg (fun z => max z 0)
    (pre_apply dot_S5000x128_S128x64_S5000x64_1_0_0_1_n_n rfl rfl rfl rfl rfl rfl bitsLt_bf16_f32
      broadcasts_S1x64_S5000x64 a x wl wr b p q)

/-- The log-softmax of the rows of a block as the second kernel spells it — the row maximum from the word for minus
    infinity, kept as a column and subtracted; the exponentials summed over the row from the zero word, kept as a column;
    the logarithm subtracted — at (p, q): `logSoftmaxRow` of row p. -/
theorem logSoftmax_apply {R C : ℕ} (Z : FVec Ideal ⟨2, ![R, C]⟩ .f32)
    (hred : (⟨2, ![R, C]⟩ : Shape).Reduces [1] ⟨1, ![R]⟩) (hφ : FKind.Formats .f32)
    (hacc1 : (0xFF800000#32 : BitVec 32) = FKind.maximumf.neutral .f32 hφ)
    (hacc2 : (0x00000000#32 : BitVec 32) = 0x00000000#32)
    (hsc : (⟨1, ![R]⟩ : Shape).ShapeCasts ⟨2, ![R, 1]⟩) (hbc : (⟨2, ![R, 1]⟩ : Shape).Broadcasts ⟨2, ![R, C]⟩)
    (p : Fin R) (q : Fin C) :
    subf (subf Z (broadcastTo ⟨2, ![R, C]⟩ (shapeCast ⟨2, ![R, 1]⟩
            (multiReduction .maximumf [1] ⟨1, ![R]⟩ Z 0xFF800000#32 hred hφ hacc1) hsc) hbc))
        (broadcastTo ⟨2, ![R, C]⟩ (log (shapeCast ⟨2, ![R, 1]⟩
            (multiReduction .add [1] ⟨1, ![R]⟩
              (exp (subf Z (broadcastTo ⟨2, ![R, C]⟩ (shapeCast ⟨2, ![R, 1]⟩
                (multiReduction .maximumf [1] ⟨1, ![R]⟩ Z 0xFF800000#32 hred hφ hacc1) hsc) hbc)))
              0x00000000#32 hred hφ hacc2) hsc)) hbc) (ix2 p q)
      = logSoftmaxRow (fun c => Z (ix2 p c)) q := by
  -- the shifted entry at any column of row p
  have hshift : ∀ c : Fin C,
      subf Z (broadcastTo ⟨2, ![R, C]⟩ (shapeCast ⟨2, ![R, 1]⟩
        (multiReduction .maximumf [1] ⟨1, ![R]⟩ Z 0xFF800000#32 hred hφ hacc1) hsc) hbc) (ix2 p c)
        = Z (ix2 p c) - rowMax (fun c => Z (ix2 p c)) := fun c => by
    rw [subf_apply, Cert.LibKeepdimsColumn.broadcastTo_a1_ab_apply, Cert.LibKeepdimsColumn.shapeCast_a_a1_apply,
      Cert.LibRowMax.rowMax_apply]
    rfl
  rw [subf_apply, hshift q, Cert.LibKeepdimsColumn.broadcastTo_a1_ab_apply]
  show _ - Ideal.log (shapeCast ⟨2, ![R, 1]⟩ _ hsc (ix2 p (0 : Fin 1))) = _
  rw [Cert.LibKeepdimsColumn.shapeCast_a_a1_apply, Cert.LibKeepdimsColumn.rowSum_apply]
  unfold logSoftmaxRow
  refine congrArg (fun s => _ - Ideal.log s) (Finset.sum_congr rfl fun c _ => ?_)
  show Ideal.exp _ = _
  rw [hshift c]

/-- The second kernel's stored block at (p, q): the log-softmax of the row's `pre`. -/
theorem pay1_apply (a x : Vec Ideal S5000x64 .f32) (wl wr : Vec Ideal S64x40 .f32) (b : Vec Ideal S1x40 .f32)
    (p : Fin 5000) (q : Fin 40) :
    k1_pay1 (F := Ideal) a x wl wr b (ix2 p q) = logSoftmaxRow (pre wl wr (biasRow b) (row a p) (row x p)) q := by
  unfold k1_pay1
  rw [shapeCast_self, shapeCast_self, shapeCast_self, shapeCast_self]
  refine (logSoftmax_apply _ reduces_S5000x40_S5000 (.inl rfl) rfl rfl shapeCasts_S5000_S5000x1
    broadcasts_S5000x1_S5000x40 p q).trans ?_
  exact congrArg (fun z => logSoftmaxRow z q) (funext fun c =>
    pre_apply dot_S5000x64_S64x40_S5000x40_1_0_0_1_n_n rfl rfl rfl rfl rfl rfl bitsLt_bf16_f32
      broadcasts_S1x40_S5000x40 a x wl wr b p c)

end Cert.KernelIdeal.Body

end
-- ==== Proof.KernelRegion0.lean ====
/-
  The first kernel's region: the [100000, 64] result array after the run of the region, as one function of the arrays
  the region finds.

  The grid has 20 points; point t takes rows 5000·t … 5000·t + 4999 of the aggregated features and of the node features,
  the two weight matrices and the bias row whole, and writes rows 5000·t … 5000·t + 4999 of the result. What it writes is
  the rectifier of `pre` of each row (the kernel's stored block read at an entry), so block t of the result is block t
  of `conv1` of the whole arrays; the 20 blocks cover the rows, and the result array is `conv1` of the whole arrays.
-/
import proofs.«166646_j46772193853511_1_alg».proof.Proof.Gen.KernelIdeal.Frame
import proofs.«166646_j46772193853511_1_alg».proof.Proof.KernelBody
import Idealize.ShloMosaic.Lib.Pipeline.Value

set_option maxRecDepth 16384

noncomputable section

open scoped BigOperators

namespace Cert.KernelIdeal.Region0

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs move with the output's block row, every other
    block index is zero, and the output's block row is below 20. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every block row is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- The result array's function of the arrays the region finds. -/
def G (c : Dev nD) : FVec Ideal S100000x64 .f32 :=
  conv1 (V c main_v24) (V c main_arg0) (V c main_arg2) (V c main_arg3) (biasRow (V c main_v25))

/-- A stored block whose inputs are rows n·5000 … of the whole arrays is rows n·5000 … of `conv1`. -/
theorem block_eq (A X : FVec Ideal S100000x128 .f32) (Wl Wr : FVec Ideal S128x64 .f32) (B : FVec Ideal S1x64 .f32)
    (a x : Vec Ideal S5000x128 .f32) (wl wr : Vec Ideal S128x64 .f32) (b : Vec Ideal S1x64 .f32)
    (n : ℕ) (hn : n ≤ 19)
    (ha : ∀ (p : Fin 5000) (k : Fin 128), a (ix2 p k) = A (ix2 ⟨n * 5000 + p.val, by have := p.isLt; omega⟩ k))
    (hx : ∀ (p : Fin 5000) (k : Fin 128), x (ix2 p k) = X (ix2 ⟨n * 5000 + p.val, by have := p.isLt; omega⟩ k))
    (hwl : wl = Wl) (hwr : wr = Wr) (hb : b = B) (p : Fin 5000) (q : Fin 64) :
    k0_pay1 (F := Ideal) a x wl wr b (ix2 p q)
      = conv1 A X Wl Wr (biasRow B) (ix2 ⟨n * 5000 + p.val, by have := p.isLt; omega⟩ q) := by
  subst hwl hwr hb
  rw [pay0_apply]
  unfold conv1
  have ea : row a p = row A ⟨n * 5000 + p.val, by have := p.isLt; omega⟩ := funext fun k => ha p k
  have ex : row x p = row X ⟨n * 5000 + p.val, by have := p.isLt; omega⟩ := funext fun k => hx p k
  rw [ea, ex]

/-- What point t writes back is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = G V c (((cfg0.win 5).blk t).view.emb (ix2 p q))
  refine (block_eq (V c main_v24) (V c main_arg0) (V c main_arg2) (V c main_arg3) (V c main_v25)
      (iblk0 V c 0 t) (iblk0 V c 1 t) (iblk0 V c 2 t) (iblk0 V c 3 t) (iblk0 V c 4 t) (win0_5.index t (0 : Fin 2)) e50
      ?_ ?_ ?_ ?_ ?_ p q).trans ?_
  · intro p k
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  · intro p k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 64 + 1 * (y 1).val = (y 1).val; omega
  · funext y
    show V c main_arg3 (((cfg0.win 3).blk t).view.emb y) = V c main_arg3 y
    refine congrArg (V c main_arg3) (funext fun a => Fin.ext ?_)
    match a with
    | ⟨0, _⟩ => show win0_3.index t (0 : Fin 2) * 128 + 1 * (y 0).val = (y 0).val; omega
    | ⟨1, _⟩ => show win0_3.index t (1 : Fin 2) * 64 + 1 * (y 1).val = (y 1).val; omega
  · funext y
    show V c main_v25 (((cfg0.win 4).blk t).view.emb y) = V c main_v25 y
    refine congrArg (V c main_v25) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · refine congrArg (G V c) (funext fun a => Fin.ext ?_)
    match a with
    | ⟨0, _⟩ => show win0_5.index t (0 : Fin 2) * 5000 + p.val = win0_5.index t (0 : Fin 2) * 5000 + 1 * p.val; omega
    | ⟨1, _⟩ => show q.val = win0_5.index t (1 : Fin 2) * 64 + 1 * q.val; omega

/-- An index of the result array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Every index of the result array is in some point's block: row r in the block of point r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The result array after the region: `conv1` of the arrays the region finds. -/
theorem final (c : Dev nD) : (dat0 V c).arrAt 5 cfg0.N = G V c :=
  (dat0 V c).arrAt_eq_of_cover 5 (G V c) (fun t _ => flushed_eq V c t) cover

end Cert.KernelIdeal.Region0

end
-- ==== Proof.KernelRegion1.lean ====
/-
  The second kernel's region: the [100000, 40] result array after the run of the region, as one function of the arrays
  the region finds.

  The grid has 20 points; point t takes rows 5000·t … 5000·t + 4999 of the aggregated hidden features and of the hidden
  features, the two weight matrices and the bias row whole, and writes rows 5000·t … 5000·t + 4999 of the result. What it
  writes is the log-softmax of `pre` of each row (the kernel's stored block read at an entry), so block t of the result
  is block t of `conv2` of the whole arrays; the 20 blocks cover the rows, and the result array is `conv2` of the whole
  arrays.
-/
import proofs.«166646_j46772193853511_1_alg».proof.Proof.Gen.KernelIdeal.Frame
import proofs.«166646_j46772193853511_1_alg».proof.Proof.KernelBody
import Idealize.ShloMosaic.Lib.Pipeline.Value

set_option maxRecDepth 16384

noncomputable section

open scoped BigOperators

namespace Cert.KernelIdeal.Region1

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs move with the output's block row, every other
    block index is zero, and the output's block row is below 20. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every block row is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- The result array's function of the arrays the region finds. -/
def G (c : Dev nD) : FVec Ideal S100000x40 .f32 :=
  conv2 (V c main_v38) (V c main_v26) (V c main_arg5) (V c main_arg6) (biasRow (V c main_v39))

/-- A stored block whose inputs are rows n·5000 … of the whole arrays is rows n·5000 … of `conv2`. -/
theorem block_eq (A X : FVec Ideal S100000x64 .f32) (Wl Wr : FVec Ideal S64x40 .f32) (B : FVec Ideal S1x40 .f32)
    (a x : Vec Ideal S5000x64 .f32) (wl wr : Vec Ideal S64x40 .f32) (b : Vec Ideal S1x40 .f32)
    (n : ℕ) (hn : n ≤ 19)
    (ha : ∀ (p : Fin 5000) (k : Fin 64), a (ix2 p k) = A (ix2 ⟨n * 5000 + p.val, by have := p.isLt; omega⟩ k))
    (hx : ∀ (p : Fin 5000) (k : Fin 64), x (ix2 p k) = X (ix2 ⟨n * 5000 + p.val, by have := p.isLt; omega⟩ k))
    (hwl : wl = Wl) (hwr : wr = Wr) (hb : b = B) (p : Fin 5000) (q : Fin 40) :
    k1_pay1 (F := Ideal) a x wl wr b (ix2 p q)
      = conv2 A X Wl Wr (biasRow B) (ix2 ⟨n * 5000 + p.val, by have := p.isLt; omega⟩ q) := by
  subst hwl hwr hb
  rw [pay1_apply]
  unfold conv2
  have ea : row a p = row A ⟨n * 5000 + p.val, by have := p.isLt; omega⟩ := funext fun k => ha p k
  have ex : row x p = row X ⟨n * 5000 + p.val, by have := p.isLt; omega⟩ := funext fun k => hx p k
  rw [ea, ex]

/-- What point t writes back is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x40) hz, View.ld_unit_zero (S := S1x40) hz]
  obtain ⟨e00, e01, e10, e11, e20, e21, e30, e31, e40, e41, e50, e51⟩ := idx_facts t
  funext j
  obtain ⟨p, q, rfl⟩ : ∃ (p : Fin 5000) (q : Fin 40), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = G V c (((cfg1.win 5).blk t).view.emb (ix2 p q))
  refine (block_eq (V c main_v38) (V c main_v26) (V c main_arg5) (V c main_arg6) (V c main_v39)
      (iblk1 V c 0 t) (iblk1 V c 1 t) (iblk1 V c 2 t) (iblk1 V c 3 t) (iblk1 V c 4 t) (win1_5.index t (0 : Fin 2)) e50
      ?_ ?_ ?_ ?_ ?_ p q).trans ?_
  · intro p k
    show V c main_v38 (((cfg1.win 0).blk t).view.emb (ix2 p k)) = _
    refine congrArg (V c main_v38) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 64 + 1 * k.val = k.val; omega
  · intro p k
    show V c main_v26 (((cfg1.win 1).blk t).view.emb (ix2 p k)) = _
    refine congrArg (V c main_v26) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 64 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; omega
    | ⟨1, _⟩ => show win1_2.index t (1 : Fin 2) * 40 + 1 * (y 1).val = (y 1).val; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 64 + 1 * (y 0).val = (y 0).val; omega
    | ⟨1, _⟩ => show win1_3.index t (1 : Fin 2) * 40 + 1 * (y 1).val = (y 1).val; omega
  · funext y
    show V c main_v39 (((cfg1.win 4).blk t).view.emb y) = V c main_v39 y
    refine congrArg (V c main_v39) (funext fun a => Fin.ext ?_)
    match a with
    | ⟨0, _⟩ => show win1_4.index t (0 : Fin 2) * 1 + 1 * (y 0).val = (y 0).val; omega
    | ⟨1, _⟩ => show win1_4.index t (1 : Fin 2) * 40 + 1 * (y 1).val = (y 1).val; omega
  · refine congrArg (G V c) (funext fun a => Fin.ext ?_)
    match a with
    | ⟨0, _⟩ => show win1_5.index t (0 : Fin 2) * 5000 + p.val = win1_5.index t (0 : Fin 2) * 5000 + 1 * p.val; omega
    | ⟨1, _⟩ => show q.val = win1_5.index t (1 : Fin 2) * 40 + 1 * q.val; omega

/-- An index of the result array is in point t's block iff each coordinate is in the block's range on its axis. -/
theorem mem_blk (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v40).slice (win1_5.rect t)).set ↔ _
  rw [View.set_slice_whole, Rect.mem_set_unit]
  exact Iff.rfl

/-- Every index of the result array is in some point's block: row r in the block of point r / 5000. -/
theorem cover (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 40 ≤ (i 1).val ∧ (i 1).val < win1_5.index t (1 : Fin 2) * 40 + 40
    omega

/-- The result array after the region: `conv2` of the arrays the region finds. -/
theorem final (c : Dev nD) : (dat1 V c).arrAt 5 cfg1.N = G V c :=
  (dat1 V c).arrAt_eq_of_cover 5 (G V c) (fun t _ => flushed_eq V c t) cover

end Cert.KernelIdeal.Region1

end
-- ==== Proof.HostChain.lean ====
/-
  The host operations both programs share, as functions of the edge list.

  The edge list is a [2, 1600000] array of 32-bit words: row 0 the source node of each edge, row 1 its destination.
  A source id below zero is wrapped once by the number of nodes before it selects a row (`wrapCol`); the rows selected
  for the edges are added into their destination nodes' rows of a zero array (`segsum128`, `segsum64`: the neighbour
  sum). The in-degree is the same sum of ones (`deg`), clamped below at one (`degClamp`). One program scales the
  neighbour sum by the reciprocal of the clamped degree laid out as a column and over the feature columns
  (`scaled128`, `scaled64`); the other divides it by the clamped degree laid out the same way (`divided128`,
  `divided64`). At every entry the two are one number: the clamped degree is not zero, and on the extended reals
  x · (1/d) and x/d are then both x · d⁻¹ (`scaled128_eq`, `scaled64_eq`).
-/
import proofs.«166646_j46772193853511_1_alg».proof.KernelIdeal
import proofs.«166646_j46772193853511_1_alg».proof.Proof.Gen.KernelIdeal
import proofs.«166646_j46772193853511_1_alg».proof.Proof.Spec

noncomputable section

namespace Cert.Sage.HostChain

open Cert.KernelIdeal Cert.KernelIdeal.Gen Idealize.ShloMosaic Idealize.ShloMosaic.ValueIdx Cert.Sage

abbrev Edges := IVec S2x1600000 32
abbrev Ids := IVec S1600000 32
abbrev IdCol := IVec S1600000x1 32
abbrev NodeVec := FVec Ideal S100000 .f32
abbrev NodeCol := FVec Ideal S100000x1 .f32
abbrev Feat128 := FVec Ideal S100000x128 .f32
abbrev Feat64 := FVec Ideal S100000x64 .f32

/-- Row 0 of the edge list: the source ids. -/
def src (ei : Edges) : Ids :=
  shapeCast S1600000 (extractStridedSlice S1x1600000 ![0, 0] ei slices_S2x1600000_S1x1600000_0_0) shapeCasts_S1x1600000_S1600000

/-- Row 1 of the edge list: the destination ids. -/
def dst (ei : Edges) : Ids :=
  shapeCast S1600000 (extractStridedSlice S1x1600000 ![1, 0] ei slices_S2x1600000_S1x1600000_1_0) shapeCasts_S1x1600000_S1600000

/-- Ids as a column of start indices. -/
def col (d : Ids) : IdCol := broadcastInDim S1600000x1 ![0] bcast_S1600000_S1600000x1_0 d

/-- Source ids, a negative one wrapped by the number of nodes, as a column of start indices. -/
def wrapCol (s : Ids) : IdCol :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The neighbour sum of 128-column features. -/
def segsum128 (x : Feat128) (s d : Ids) : Feat128 :=
  Host.scatterAdd (F := Ideal) scatter_S100000x128_S1600000x1_S1600000x128_1_0_0_1
    (broadcastInDim S100000x128 ![] bcast_S_S100000x128 (constant (F := Ideal) S_ .f32 0x00000000#32)) (col d)
    (Host.gather gather_S100000x128_S1600000x1_S1600000x128_1_0_n_n_0_1_1128 x (wrapCol s))

/-- The neighbour sum of 64-column features. -/
def segsum64 (h : Feat64) (s d : Ids) : Feat64 :=
  Host.scatterAdd (F := Ideal) scatter_S100000x64_S1600000x1_S1600000x64_1_0_0_1
    (broadcastInDim S100000x64 ![] bcast_S_S100000x64 (constant (F := Ideal) S_ .f32 0x00000000#32)) (col d)
    (Host.gather gather_S100000x64_S1600000x1_S1600000x64_1_0_n_n_0_1_164 h (wrapCol s))

/-- The in-degree: ones added into the destination nodes. -/
def deg (d : Ids) : NodeVec :=
  Host.scatterAdd (F := Ideal) scatter_S100000_S1600000x1_S1600000_n_0_0_1
    (broadcastInDim S100000 ![] bcast_S_S100000 (constant (F := Ideal) S_ .f32 0x00000000#32)) (col d)
    (broadcastInDim S1600000 ![] bcast_S_S1600000 (constant (F := Ideal) S_ .f32 0x3F800000#32))

/-- The in-degree clamped below at one. -/
def degClamp (d : Ids) : NodeVec :=
  maximumf (F := Ideal) (deg d) (broadcastInDim S100000 ![] bcast_S_S100000 (constant (F := Ideal) S_ .f32 0x3F800000#32))

/-- The reciprocal of the clamped in-degree, as a column. -/
def invCol (d : Ids) : NodeCol :=
  broadcastInDim S100000x1 ![0] bcast_S100000_S100000x1_0
    (Host.divf (F := Ideal) (broadcastInDim S100000 ![] bcast_S_S100000 (constant (F := Ideal) S_ .f32 0x3F800000#32)) (degClamp d))

/-- The clamped in-degree, as a column. -/
def degCol (d : Ids) : NodeCol := broadcastInDim S100000x1 ![0] bcast_S100000_S100000x1_0 (degClamp d)

/-- The neighbour sum times a column laid out over the 128 feature columns. -/
def scaled128 (x : Feat128) (s d : Ids) (ic : NodeCol) : Feat128 :=
  mulf (F := Ideal) (segsum128 x s d) (broadcastInDim S100000x128 ![0, 1] bcast_S100000x1_S100000x128_0_1 ic)

/-- The neighbour sum times a column laid out over the 64 feature columns. -/
def scaled64 (h : Feat64) (s d : Ids) (ic : NodeCol) : Feat64 :=
  mulf (F := Ideal) (segsum64 h s d) (broadcastInDim S100000x64 ![0, 1] bcast_S100000x1_S100000x64_0_1 ic)

/-- The neighbour sum divided by a column laid out over the 128 feature columns. -/
def divided128 (x : Feat128) (s d : Ids) (dc : NodeCol) : Feat128 :=
  Host.divf (F := Ideal) (segsum128 x s d) (broadcastInDim S100000x128 ![0, 1] bcast_S100000x1_S100000x128_0_1 dc)

/-- The neighbour sum divided by a column laid out over the 64 feature columns. -/
def divided64 (h : Feat64) (s d : Ids) (dc : NodeCol) : Feat64 :=
  Host.divf (F := Ideal) (segsum64 h s d) (broadcastInDim S100000x64 ![0, 1] bcast_S100000x1_S100000x64_0_1 dc)

/-- The clamped in-degree is nowhere zero. -/
theorem degClamp_ne_zero (d : Ids) (n : Fin 100000) : degClamp d (ix1 n) ≠ 0 := by
  unfold degClamp
  rw [maximumf_apply]
  have e : broadcastInDim S100000 ![] bcast_S_S100000 (constant (F := Ideal) S_ .f32 0x3F800000#32) (ix1 n)
      = constant (F := Ideal) S_ .f32 0x3F800000#32 ix0 :=
    broadcastInDim_apply ![] bcast_S_S100000 _ (ix1 n) ix0 fun a => a.elim0
  rw [e, constant_apply]
  exact max_one_ne_zero _

/-- The host's quotient at an index. -/
theorem hostDivf_apply {s : Shape} (a b : FVec Ideal s .f32) (i : s.Idx) : Host.divf a b i = Ideal.div (a i) (b i) := rfl

/-- The reciprocal column's entry: one over the clamped in-degree. -/
theorem invVec_apply (d : Ids) (n : Fin 100000) :
    Host.divf (F := Ideal) (broadcastInDim S100000 ![] bcast_S_S100000 (constant (F := Ideal) S_ .f32 0x3F800000#32)) (degClamp d) (ix1 n)
      = Ideal.div 1 (degClamp d (ix1 n)) := by
  have e1 : broadcastInDim S100000 ![] bcast_S_S100000 (constant (F := Ideal) S_ .f32 0x3F800000#32) (ix1 n)
      = Ideal.ofBits .f32 0x3F800000#32 :=
    (broadcastInDim_apply ![] bcast_S_S100000 _ (ix1 n) ix0 fun a => a.elim0).trans (constant_apply _ _)
  rw [hostDivf_apply, e1, ofBits_one]

/-- Any array times the reciprocal column laid out over 128 columns is the array divided by the degree column laid out
    the same way. -/
theorem mul_inv_eq_div128 (S : Feat128) (d : Ids) :
    mulf (F := Ideal) S (broadcastInDim S100000x128 ![0, 1] bcast_S100000x1_S100000x128_0_1 (invCol d))
      = Host.divf (F := Ideal) S (broadcastInDim S100000x128 ![0, 1] bcast_S100000x1_S100000x128_0_1 (degCol d)) := by
  funext i
  obtain ⟨n, k, rfl⟩ : ∃ (n : Fin 100000) (k : Fin 128), i = ix2 n k := ⟨i 0, i 1, eq_ix2 i⟩
  rw [mulf_apply, hostDivf_apply]
  unfold invCol degCol
  rw [column_layout_apply bcast_S100000_S100000x1_0 bcast_S100000x1_S100000x128_0_1,
    column_layout_apply bcast_S100000_S100000x1_0 bcast_S100000x1_S100000x128_0_1, invVec_apply]
  exact mul_div_one _ _ (degClamp_ne_zero d n)

/-- The same over 64 columns. -/
theorem mul_inv_eq_div64 (S : Feat64) (d : Ids) :
    mulf (F := Ideal) S (broadcastInDim S100000x64 ![0, 1] bcast_S100000x1_S100000x64_0_1 (invCol d))
      = Host.divf (F := Ideal) S (broadcastInDim S100000x64 ![0, 1] bcast_S100000x1_S100000x64_0_1 (degCol d)) := by
  funext i
  obtain ⟨n, k, rfl⟩ : ∃ (n : Fin 100000) (k : Fin 64), i = ix2 n k := ⟨i 0, i 1, eq_ix2 i⟩
  rw [mulf_apply, hostDivf_apply]
  unfold invCol degCol
  rw [column_layout_apply bcast_S100000_S100000x1_0 bcast_S100000x1_S100000x64_0_1,
    column_layout_apply bcast_S100000_S100000x1_0 bcast_S100000x1_S100000x64_0_1, invVec_apply]
  exact mul_div_one _ _ (degClamp_ne_zero d n)

/-- Scaling the neighbour sum by the reciprocal column is dividing it by the degree column: 128 feature columns. -/
theorem scaled128_eq (x : Feat128) (s d : Ids) : scaled128 x s d (invCol d) = divided128 x s d (degCol d) :=
  mul_inv_eq_div128 (segsum128 x s d) d

/-- The same for 64 feature columns. -/
theorem scaled64_eq (h : Feat64) (s d : Ids) : scaled64 h s d (invCol d) = divided64 h s d (degCol d) :=
  mul_inv_eq_div64 (segsum64 h s d) d

/-- The hidden features: the first layer on the scaled neighbour sum of the node features and the node features. -/
def hiddenFeatures (x : Feat128) (ei : Edges) (wl wr : FVec Ideal S128x64 .f32) (b : FVec Ideal S64 .f32) : Feat64 :=
  conv1 (scaled128 x (src ei) (dst ei) (invCol (dst ei))) x wl wr (vec b)

/-- The result: the second layer on the scaled neighbour sum of the hidden features and the hidden features. -/
def outputScores (x : Feat128) (ei : Edges) (wl wr : FVec Ideal S128x64 .f32) (b : FVec Ideal S64 .f32)
    (vl vr : FVec Ideal S64x40 .f32) (b' : FVec Ideal S40 .f32) : FVec Ideal S100000x40 .f32 :=
  conv2 (scaled64 (hiddenFeatures x ei wl wr b) (src ei) (dst ei) (invCol (dst ei))) (hiddenFeatures x ei wl wr b) vl vr (vec b')

end Cert.Sage.HostChain

end
-- ==== Proof.KernelHost.lean ====
/-
  The kernel program's result array as one function of its arguments.

  The program is a stretch of host operations, the first kernel's region, a second stretch of host operations and the
  second kernel's region. Reading the buffers' contents at each boundary back through the operations: the first region
  is entered with the neighbour sum of the node features scaled by the reciprocal degree column, the node features, the
  first layer's weights and its bias as a [1, 64] row, and leaves `conv1` of them — the hidden features — in its result
  array; the second region is entered with the neighbour sum of the hidden features scaled the same way, the hidden
  features, the second layer's weights and its bias as a [1, 40] row, and leaves `conv2` of them in the program's result
  array.
-/
import proofs.«166646_j46772193853511_1_alg».proof.Proof.Gen.KernelIdeal.Frame
import proofs.«166646_j46772193853511_1_alg».proof.Proof.KernelRegion0
import proofs.«166646_j46772193853511_1_alg».proof.Proof.KernelRegion1
import proofs.«166646_j46772193853511_1_alg».proof.Proof.HostChain
import proofs.«166646_j46772193853511_1_alg».proof.Proof.KernelRun
import Idealize.ShloMosaic.Lib.StableHlo.Run
import proofs.«166646_j46772193853511_1_alg».proof.Proof.LibBiasRow

set_option maxRecDepth 16384

noncomputable section

namespace Cert.KernelIdeal.HostK

open Cert.KernelIdeal Cert.KernelIdeal.Gen Cert.KernelIdeal.Body Cert.Sage Cert.Sage.HostChain
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The program's arguments on core c. -/
abbrev aX (c : Dev nD) : Feat128 := m ((c : Thread nD τ).loc main_arg0)
abbrev aE (c : Dev nD) : Edges := m ((c : Thread nD τ).loc main_arg1)
abbrev aW1l (c : Dev nD) : FVec Ideal S128x64 .f32 := m ((c : Thread nD τ).loc main_arg2)
abbrev aW1r (c : Dev nD) : FVec Ideal S128x64 .f32 := m ((c : Thread nD τ).loc main_arg3)
abbrev aB1 (c : Dev nD) : FVec Ideal S64 .f32 := m ((c : Thread nD τ).loc main_arg4)
abbrev aW2l (c : Dev nD) : FVec Ideal S64x40 .f32 := m ((c : Thread nD τ).loc main_arg5)
abbrev aW2r (c : Dev nD) : FVec Ideal S64x40 .f32 := m ((c : Thread nD τ).loc main_arg6)
abbrev aB2 (c : Dev nD) : FVec Ideal S40 .f32 := m ((c : Thread nD τ).loc main_arg7)

/-! ## The first region's entry contents -/

theorem V1_v24 (c : Dev nD) :
    V1 m ρ c main_v24 = scaled128 (aX m c) (src (aE m c)) (dst (aE m c)) (invCol (dst (aE m c))) := by
  show StableHlo.after hostOps0 (W0 m ρ c) (Proc.devRef .tc main_v24) = _
  after_results_simp <;> rfl

theorem V1_arg0 (c : Dev nD) : V1 m ρ c main_arg0 = aX m c := by
  show StableHlo.after hostOps0 (W0 m ρ c) (Proc.devRef .tc main_arg0) = _
  after_results_simp <;> rfl

theorem V1_arg2 (c : Dev nD) : V1 m ρ c main_arg2 = aW1l m c := by
  show StableHlo.after hostOps0 (W0 m ρ c) (Proc.devRef .tc main_arg2) = _
  after_results_simp <;> rfl

theorem V1_arg3 (c : Dev nD) : V1 m ρ c main_arg3 = aW1r m c := by
  show StableHlo.after hostOps0 (W0 m ρ c) (Proc.devRef .tc main_arg3) = _
  after_results_simp <;> rfl

theorem V1_v25 (c : Dev nD) : V1 m ρ c main_v25 = shapeCast S1x64 (aB1 m c) shapeCasts_S64_S1x64 := by
  show StableHlo.after hostOps0 (W0 m ρ c) (Proc.devRef .tc main_v25) = _
  after_results_simp <;> rfl

/-- A bias vector reshaped to a one-row block, as a function of the column, is the vector. -/
theorem biasRow_cast {C : ℕ} (b : FVec Ideal ⟨1, ![C]⟩ .f32) (h : (⟨1, ![C]⟩ : Shape).ShapeCasts ⟨2, ![1, C]⟩) :
    biasRow (shapeCast ⟨2, ![1, C]⟩ b h) = vec b :=
  funext fun c => Cert.BiasRow.cast_row_apply h b c

/-! ## The first region's exit contents: the hidden features -/

theorem W2_v26 (c : Dev nD) :
    W2 m ρ c (Proc.devRef .tc main_v26) = hiddenFeatures (aX m c) (aE m c) (aW1l m c) (aW1r m c) (aB1 m c) := by
  refine (W2_arr m ρ c 5).trans ((Region0.final (V1 m ρ) c).trans ?_)
  unfold Region0.G hiddenFeatures
  rw [V1_v24, V1_arg0, V1_arg2, V1_arg3, V1_v25, biasRow_cast]

theorem W2_v1 (c : Dev nD) : W2 m ρ c (Proc.devRef .tc main_v1) = src (aE m c) := by
  refine (W2_of_ne m ρ c main_v1 (by decide)).trans ?_
  show StableHlo.after hostOps0 (W0 m ρ c) (Proc.devRef .tc main_v1) = _
  after_results_simp <;> rfl

theorem W2_v3 (c : Dev nD) : W2 m ρ c (Proc.devRef .tc main_v3) = dst (aE m c) := by
  refine (W2_of_ne m ρ c main_v3 (by decide)).trans ?_
  show StableHlo.after hostOps0 (W0 m ρ c) (Proc.devRef .tc main_v3) = _
  after_results_simp <;> rfl

theorem W2_v12 (c : Dev nD) : W2 m ρ c (Proc.devRef .tc main_v12) = invCol (dst (aE m c)) := by
  refine (W2_of_ne m ρ c main_v12 (by decide)).trans ?_
  show StableHlo.after hostOps0 (W0 m ρ c) (Proc.devRef .tc main_v12) = _
  after_results_simp <;> rfl

theorem W2_arg5 (c : Dev nD) : W2 m ρ c (Proc.devRef .tc main_arg5) = aW2l m c := by
  refine (W2_of_ne m ρ c main_arg5 (by decide)).trans ?_
  show StableHlo.after hostOps0 (W0 m ρ c) (Proc.devRef .tc main_arg5) = _
  after_results_simp <;> rfl

theorem W2_arg6 (c : Dev nD) : W2 m ρ c (Proc.devRef .tc main_arg6) = aW2r m c := by
  refine (W2_of_ne m ρ c main_arg6 (by decide)).trans ?_
  show StableHlo.after hostOps0 (W0 m ρ c) (Proc.devRef .tc main_arg6) = _
  after_results_simp <;> rfl

theorem W2_arg7 (c : Dev nD) : W2 m ρ c (Proc.devRef .tc main_arg7) = aB2 m c := by
  refine (W2_of_ne m ρ c main_arg7 (by decide)).trans ?_
  show StableHlo.after hostOps0 (W0 m ρ c) (Proc.devRef .tc main_arg7) = _
  after_results_simp <;> rfl

/-! ## The second region's entry contents -/

theorem V3_v38 (c : Dev nD) :
    V3 m ρ c main_v38 = scaled64 (W2 m ρ c (Proc.devRef .tc main_v26)) (W2 m ρ c (Proc.devRef .tc main_v1))
      (W2 m ρ c (Proc.devRef .tc main_v3)) (W2 m ρ c (Proc.devRef .tc main_v12)) := by
  show StableHlo.after hostOps1 (W2 m ρ c) (Proc.devRef .tc main_v38) = _
  after_results_simp <;> rfl

theorem V3_v26 (c : Dev nD) : V3 m ρ c main_v26 = W2 m ρ c (Proc.devRef .tc main_v26) := by
  show StableHlo.after hostOps1 (W2 m ρ c) (Proc.devRef .tc main_v26) = _
  after_results_simp <;> rfl

theorem V3_arg5 (c : Dev nD) : V3 m ρ c main_arg5 = W2 m ρ c (Proc.devRef .tc main_arg5) := by
  show StableHlo.after hostOps1 (W2 m ρ c) (Proc.devRef .tc main_arg5) = _
  after_results_simp <;> rfl

theorem V3_arg6 (c : Dev nD) : V3 m ρ c main_arg6 = W2 m ρ c (Proc.devRef .tc main_arg6) := by
  show StableHlo.after hostOps1 (W2 m ρ c) (Proc.devRef .tc main_arg6) = _
  after_results_simp <;> rfl

theorem V3_v39 (c : Dev nD) :
    V3 m ρ c main_v39 = shapeCast S1x40 (W2 m ρ c (Proc.devRef .tc main_arg7)) shapeCasts_S40_S1x40 := by
  show StableHlo.after hostOps1 (W2 m ρ c) (Proc.devRef .tc main_v39) = _
  after_results_simp <;> rfl

/-! ## The result array -/

/-- The program's result array after the run is `outputScores` of the arguments. -/
theorem out_eq (c : Dev nD) :
    W4 m ρ c (Proc.devRef .tc main_v40)
      = outputScores (aX m c) (aE m c) (aW1l m c) (aW1r m c) (aB1 m c) (aW2l m c) (aW2r m c) (aB2 m c) := by
  refine (W4_arr m ρ c 5).trans ((Region1.final (V3 m ρ) c).trans ?_)
  unfold Region1.G outputScores
  rw [V3_v38, V3_v26, V3_arg5, V3_arg6, V3_v39, W2_v26, W2_v1, W2_v3, W2_v12, W2_arg5, W2_arg6, W2_arg7, biasRow_cast]

/-- The kernel program's run with its result named: every weakly fair execution terminates with the result array at
    `outputScores` of the arguments and the arguments unchanged. -/
theorem run : θ_run defs (onTc (τ := τ) (main (F := Ideal))) ⟨m, fun _ => 0, ρ⟩ (fun r => ∀ c : Dev nD,
      r.2.mem ((c.tc : Thread nD τ).loc main_v40)
        = outputScores (aX m c) (aE m c) (aW1l m c) (aW1r m c) (aB1 m c) (aW2l m c) (aW2r m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_eq m ρ c), (h c).2⟩) (Cert.KernelIdeal.RunV.run_main m ρ)

end Cert.KernelIdeal.HostK

end
-- ==== Proof.LibPlainOps.lean ====
/-
  An operation of an outlined function is a plain operation.

  The small functions a traced program outlines (where, round, clip, pad, …) name each buffer by a reference that
  carries the tensor type of the value it holds, and read and write the buffer's contents through a transport along the
  equation "the buffer's type is that type". When the carried type IS the reference's own type — which is what a call
  site builds, the equation being `rfl` — both transports are the identity, and the operation is the plain operation at
  the same buffers with the same function.

  Rewriting by these equations BEFORE the operations' results are composed keeps every value a plain term of the
  arguments. That matters next to a reduction over many elements: a transport left above such a term makes a later
  definitional comparison unfold the other side first, down to pointwise float comparisons, which evaluate the reduction.
  Here each side of each equation is a single operation, so `rfl` costs nothing.
-/
import Idealize.ShloMosaic.Lib.StableHlo

namespace Cert.PlainOps

open Idealize.ShloMosaic Idealize.ShloMosaic.StableHlo

variable {sig : RefSig} {τ : Topo} {Val : EltTy → Type}

/-- A one-operand operation of an outlined function, at references whose carried types are their own, is the plain
    one-operand operation. -/
theorem tunary_eq (a y : Ref sig .tc) (ha : a.ty = a.ty) (ha2 : a.space ≠ .host) (ha3 : a.isScoped = false)
    (hy : y.ty = y.ty) (hy2 : y.space ≠ .host) (hy3 : y.isScoped = false)
    (f : a.ty.Contents Val → y.ty.Contents Val) :
    (TRef.unary (τ := τ) (TRef.of a ha ha2 ha3) (TRef.of y hy hy2 hy3) f : HloOp τ sig Val)
      = StableHlo.unary a y f (TRef.of a ha ha2 ha3).dev (TRef.of y hy hy2 hy3).dev := rfl

/-- The same for a two-operand operation. -/
theorem tbinary_eq (a b y : Ref sig .tc) (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : a.ty.Contents Val → b.ty.Contents Val → y.ty.Contents Val) :
    (TRef.binary (τ := τ) (TRef.of a ha ha2 ha3) (TRef.of b hb hb2 hb3) (TRef.of y hy hy2 hy3) f : HloOp τ sig Val)
      = StableHlo.binary a b y f (TRef.of a ha ha2 ha3).dev (TRef.of b hb hb2 hb3).dev (TRef.of y hy hy2 hy3).dev := rfl

/-- The same for a three-operand operation (a select: the condition first). -/
theorem tternary_eq (c a b y : Ref sig .tc) (hc : c.ty = c.ty) (hc2 : c.space ≠ .host) (hc3 : c.isScoped = false)
    (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : c.ty.Contents Val → a.ty.Contents Val → b.ty.Contents Val → y.ty.Contents Val) :
    (TRef.ternary (τ := τ) (TRef.of c hc hc2 hc3) (TRef.of a ha ha2 ha3) (TRef.of b hb hb2 hb3) (TRef.of y hy hy2 hy3) f :
        HloOp τ sig Val)
      = StableHlo.ternary c a b y f (TRef.of c hc hc2 hc3).dev (TRef.of a ha ha2 ha3).dev (TRef.of b hb hb2 hb3).dev
          (TRef.of y hy hy2 hy3).dev := rfl

/-- The same for an operation with no operand (a constant). -/
theorem tnullary_eq (y : Ref sig .tc) (hy : y.ty = y.ty) (hy2 : y.space ≠ .host) (hy3 : y.isScoped = false)
    (v : y.ty.Contents Val) :
    (TRef.nullary (τ := τ) (TRef.of y hy hy2 hy3) v : HloOp τ sig Val)
      = StableHlo.nullary y v (TRef.of y hy hy2 hy3).dev := rfl

end Cert.PlainOps
-- ==== Proof.HostLayer.lean ====
/-
  One layer as a host program spells it, read at an entry.

  The pre-activation: two general products added, the bias vector laid out as a [1, C] row and then over the rows and
  added — at (r, c) it is `pre` of row r (`host_pre_apply`). The log-softmax of the rows (`hostLogSoftmax`): the row
  maximum reduced from minus infinity, once more maximised with minus infinity (which changes nothing), laid out as a
  column and over the columns and subtracted (`hostShift`); the exponentials reduced by a sum from zero, laid out as a
  column; the logarithm laid out over the columns and subtracted — at (r, c) it is `logSoftmaxRow` of row r
  (`hostLogSoftmax_apply`).
-/
import Idealize.ShloMosaic.PureOps.Reduce
import proofs.«166646_j46772193853511_1_alg».proof.Proof.Spec
import proofs.«166646_j46772193853511_1_alg».proof.Proof.LibDense
import proofs.«166646_j46772193853511_1_alg».proof.Proof.LibBiasRow
import proofs.«166646_j46772193853511_1_alg».proof.Proof.LibRowMax

noncomputable section

open scoped BigOperators

namespace Cert.Sage.HostLayer

open Idealize.ShloMosaic Idealize.ShloMosaic.ValueIdx Cert.Sage

/-- The pre-activation as the host spells it, at (r, c): `pre` of row r. -/
theorem host_pre_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (A X : FVec Ideal ⟨2, ![R, K]⟩ .f32) (Wl Wr : FVec Ideal ⟨2, ![K, C]⟩ .f32) (b : FVec Ideal ⟨1, ![C]⟩ .f32)
    (r : Fin R) (c : Fin C) :
    addf (addf (Host.dotGeneral d none A Wl) (Host.dotGeneral d none X Wr))
        (broadcastInDim ⟨2, ![R, C]⟩ ![0, 1] hb2 (broadcastInDim ⟨2, ![1, C]⟩ ![1] hb1 b)) (ix2 r c)
      = pre Wl Wr (vec b) (row A r) (row X r) c := by
  rw [addf_apply, addf_apply, Cert.Dense.dotGeneral_plain_apply d h1 h2 h3 h4 h5 h6,
    Cert.Dense.dotGeneral_plain_apply d h1 h2 h3 h4 h5 h6, Cert.BiasRow.layout_layout_apply hb1 hb2 b r c]
  rfl

/-- The host's logarithm at an index. -/
theorem hostLog_apply {s : Shape} (v : FVec Ideal s .f32) (i : s.Idx) : Host.log v i = Ideal.log (v i) := rfl

section LogSoftmax

variable {R C : ℕ} (Z : FVec Ideal ⟨2, ![R, C]⟩ .f32)
  (hrt : (⟨2, ![R, C]⟩ : Shape).ReducesTo [1] ⟨1, ![R]⟩) (hu : 0 < (⟨0, ![]⟩ : Shape).numel)
  (hb0 : (⟨0, ![]⟩ : Shape).BroadcastsInDim ⟨1, ![R]⟩ (![] : Fin 0 → Fin 1))
  (hb1 : (⟨1, ![R]⟩ : Shape).BroadcastsInDim ⟨2, ![R, 1]⟩ (![0] : Fin 1 → Fin 2))
  (hb2 : (⟨2, ![R, 1]⟩ : Shape).BroadcastsInDim ⟨2, ![R, C]⟩ (![0, 1] : Fin 2 → Fin 2))

/-- The rows shifted by their maxima, as the host spells it. -/
def hostShift : FVec Ideal ⟨2, ![R, C]⟩ .f32 :=
  subf Z (broadcastInDim ⟨2, ![R, C]⟩ ![0, 1] hb2 (broadcastInDim ⟨2, ![R, 1]⟩ ![0] hb1
    (maximumf (broadcastInDim ⟨1, ![R]⟩ ![] hb0 (constant (F := Ideal) ⟨0, ![]⟩ .f32 0xFF800000#32))
      (Host.reduce FloatOps.maximumf Z (constant (F := Ideal) ⟨0, ![]⟩ .f32 0xFF800000#32) hrt hu))))

/-- The log-softmax of the rows, as the host spells it. -/
def hostLogSoftmax : FVec Ideal ⟨2, ![R, C]⟩ .f32 :=
  subf (hostShift Z hrt hu hb0 hb1 hb2) (broadcastInDim ⟨2, ![R, C]⟩ ![0, 1] hb2 (Host.log
    (broadcastInDim ⟨2, ![R, 1]⟩ ![0] hb1
      (Host.reduceAdd (Host.exp (hostShift Z hrt hu hb0 hb1 hb2)) (constant (F := Ideal) ⟨0, ![]⟩ .f32 0x00000000#32) hrt hu))))

/-- The shifted entry at (r, c): the entry minus the row's maximum. -/
theorem hostShift_apply (hred : (⟨2, ![R, C]⟩ : Shape).Reduces [1] ⟨1, ![R]⟩) (r : Fin R) (c : Fin C) :
    hostShift Z hrt hu hb0 hb1 hb2 (ix2 r c) = Z (ix2 r c) - rowMax (fun c => Z (ix2 r c)) := by
  unfold hostShift
  rw [subf_apply, column_layout_apply hb1 hb2, maximumf_apply]
  have e0 : broadcastInDim ⟨1, ![R]⟩ ![] hb0 (constant (F := Ideal) ⟨0, ![]⟩ .f32 0xFF800000#32) (ix1 r)
      = Ideal.ofBits .f32 0xFF800000#32 :=
    (broadcastInDim_apply ![] hb0 _ (ix1 r) ix0 fun a => a.elim0).trans (constant_apply _ _)
  have e1 : Host.reduce FloatOps.maximumf Z (constant (F := Ideal) ⟨0, ![]⟩ .f32 0xFF800000#32) hrt hu (ix1 r)
      = rowMax (fun c => Z (ix2 r c)) := by
    rw [Host.reduce_eq_fold_single FloatOps.maximumf Z _ hrt hred hu]
    have hf : (Z ∘ hred.lift (ix1 r)) = fun c : Fin C => Z (ix2 r c) :=
      funext fun c => congrArg Z (Cert.LibRowMax.lift_row hred r c)
    rw [hf]
    rfl
  rw [e0, e1, max_start_rowMax]

/-- The host's log-softmax at (r, c): `logSoftmaxRow` of row r. -/
theorem hostLogSoftmax_apply (hred : (⟨2, ![R, C]⟩ : Shape).Reduces [1] ⟨1, ![R]⟩) (r : Fin R) (c : Fin C) :
    hostLogSoftmax Z hrt hu hb0 hb1 hb2 (ix2 r c) = logSoftmaxRow (fun c => Z (ix2 r c)) c := by
  -- the row sum of the exponentials of the shifted row
  have esum : Host.reduceAdd (Host.exp (hostShift Z hrt hu hb0 hb1 hb2))
        (constant (F := Ideal) ⟨0, ![]⟩ .f32 0x00000000#32) hrt hu (ix1 r)
      = ∑ j : Fin C, Ideal.exp (Z (ix2 r j) - rowMax (fun c => Z (ix2 r c))) := by
    simp only [Host.reduceAdd, Ideal.hostReduceAdd_def]
    rw [Ideal.hostReduceAdd_single hrt hred, constant_apply, Ideal.ofBits_zero_f32, zero_add]
    refine Finset.sum_congr rfl fun j _ => ?_
    rw [Cert.LibRowMax.lift_row hred r j]
    exact congrArg Ideal.exp (hostShift_apply Z hrt hu hb0 hb1 hb2 hred r j)
  unfold hostLogSoftmax
  rw [subf_apply, hostShift_apply Z hrt hu hb0 hb1 hb2 hred, column_over_apply hb2, hostLog_apply, column_apply hb1, esum]
  rfl

end LogSoftmax

end Cert.Sage.HostLayer

end
-- ==== Proof.RefValue.lean ====
/-
  The reference program's result as the same function of the arguments.

  The reference divides each neighbour sum by the clamped in-degree laid out over the feature columns, applies a layer to
  all rows at once — two general products added, the bias laid out over the rows and added —, takes the maximum with zero
  after the first layer and the log-softmax of every row after the second. Read at an entry, each layer is `conv1` /
  `conv2` of the divided neighbour sum and the layer's input (the host's spelling of a layer at an entry); and the divided
  neighbour sum is the scaled one (the clamped in-degree is not zero). So the reference's result is `outputScores` of the
  arguments, the function the kernel program's result array ends at.
-/
import proofs.«166646_j46772193853511_1_alg».proof.Proof.RefRead
import proofs.«166646_j46772193853511_1_alg».proof.Proof.HostChain
import proofs.«166646_j46772193853511_1_alg».proof.Proof.HostLayer

set_option maxRecDepth 16384

noncomputable section

namespace Cert.ReferenceIdeal.RefValue

open Cert.ReferenceIdeal Cert.ReferenceIdeal.Gen Cert.ReferenceIdeal.ReadP
open Cert.Sage Cert.Sage.HostChain Cert.Sage.HostLayer
open Idealize.ShloMosaic Idealize.ShloMosaic.ValueIdx Idealize.ShloMosaic.TcCoe Idealize.SL.Sem

variable (x0 : Feat128) (x1 : Edges) (x2 x3 : FVec Ideal S128x64 .f32) (x4 : FVec Ideal S64 .f32)
  (x5 x6 : FVec Ideal S64x40 .f32) (x7 : FVec Ideal S40 .f32)

/-- The reference's first aggregated features: the neighbour sum of the node features divided by the degree column. -/
theorem agg1_eq : val_main_v22 (F := Ideal) x0 x1 = divided128 x0 (src x1) (dst x1) (degCol (dst x1)) := by
  simp only [val_main_v22, val_main_v13, val_main_v21, val_main_v20, val_main_v19, val_main_v17, val_main_v18, val_main_cst_3,
    val_main_v16, val_main_v15, val_main_cst_2, val_main_v14, val_main_cst_1, val_main_v12, val_main_v11, val_main_cst,
    val_main_v10, val_main_v9, val_main_v8, val_main_v7, val_main_v6, val_main_c_0, val_main_v5, val_main_v4, val_main_c,
    val_main_v3, val_main_v2, val_main_v1, val_main_v0]
  rfl

/-- The reference's hidden features: the first layer on the first aggregated features and the node features. -/
theorem hidden_eq : val_main_v29 (F := Ideal) x0 x1 x2 x3 x4 = conv1 (val_main_v22 (F := Ideal) x0 x1) x0 x2 x3 (vec x4) := by
  funext i
  obtain ⟨r, c, rfl⟩ : ∃ (r : Fin 100000) (c : Fin 64), i = ix2 r c := ⟨i 0, i 1, eq_ix2 i⟩
  simp only [val_main_v29, val_main_call0_v0, val_main_call0_cst, val_main_v28, val_main_v27, val_main_v26, val_main_v25,
    val_main_v24, val_main_v23]
  rw [Cert.Dense.host_relu_apply]
  exact congrArg (fun z => max z 0)
    (host_pre_apply dot_S100000x128_S128x64_S100000x64_1_0_0_1_n_n rfl rfl rfl rfl rfl rfl bcast_S64_S1x64_1
      bcast_S1x64_S100000x64_0_1 (val_main_v22 (F := Ideal) x0 x1) x0 x2 x3 x4 r c)

/-- The reference's second aggregated features: the neighbour sum of its hidden features divided by the degree column. -/
theorem agg2_eq : val_main_v48 (F := Ideal) x0 x1 x2 x3 x4
    = divided64 (val_main_v29 (F := Ideal) x0 x1 x2 x3 x4) (src x1) (dst x1) (degCol (dst x1)) := by
  simp only [val_main_v48, val_main_v39, val_main_v47, val_main_v46, val_main_v45, val_main_v43, val_main_v44, val_main_cst_9,
    val_main_v42, val_main_v41, val_main_cst_8, val_main_v40, val_main_cst_7, val_main_v38, val_main_v37, val_main_cst_6,
    val_main_v36, val_main_v35, val_main_v34, val_main_v33, val_main_v32, val_main_c_5, val_main_v31, val_main_v30, val_main_c_4,
    val_main_v3, val_main_v2, val_main_v1, val_main_v0]
  rfl

/-- The reference's result: the second layer on the second aggregated features and the hidden features. -/
theorem result_eq : val_main_v55 (F := Ideal) x0 x1 x2 x3 x4 x5 x6 x7
    = conv2 (val_main_v48 (F := Ideal) x0 x1 x2 x3 x4) (val_main_v29 (F := Ideal) x0 x1 x2 x3 x4) x5 x6 (vec x7) := by
  have e : val_main_v55 (F := Ideal) x0 x1 x2 x3 x4 x5 x6 x7
      = hostLogSoftmax (R := 100000) (C := 40) (val_main_v54 (F := Ideal) x0 x1 x2 x3 x4 x5 x6 x7) reducesTo_S100000x40_S100000_d1 h_S_
          bcast_S_S100000 bcast_S100000_S100000x1_0 bcast_S100000x1_S100000x40_0_1 := by
    simp only [val_main_v55, val_main_call1_v10, val_main_call1_v9, val_main_call1_v8, val_main_call1_v7, val_main_call1_cst_1,
      val_main_call1_v6, val_main_call1_v5, val_main_call1_v4, val_main_call1_v3, val_main_call1_v2, val_main_call1_v1,
      val_main_call1_cst_0, val_main_call1_v0, val_main_call1_cst]
    rfl
  rw [e]
  funext i
  obtain ⟨r, c, rfl⟩ : ∃ (r : Fin 100000) (c : Fin 40), i = ix2 r c := ⟨i 0, i 1, eq_ix2 i⟩
  rw [hostLogSoftmax_apply _ _ _ _ _ _ (by decide) r c]
  unfold conv2
  refine congrArg (fun z => logSoftmaxRow z c) (funext fun j => ?_)
  simp only [val_main_v54, val_main_v53, val_main_v52, val_main_v51, val_main_v50, val_main_v49]
  exact host_pre_apply dot_S100000x64_S64x40_S100000x40_1_0_0_1_n_n rfl rfl rfl rfl rfl rfl bcast_S40_S1x40_1
    bcast_S1x40_S100000x40_0_1 (val_main_v48 (F := Ideal) x0 x1 x2 x3 x4) (val_main_v29 (F := Ideal) x0 x1 x2 x3 x4) x5 x6 x7 r j

/-- The reference's result is `outputScores` of the arguments. -/
theorem ref_out : val_main_v55 (F := Ideal) x0 x1 x2 x3 x4 x5 x6 x7 = outputScores x0 x1 x2 x3 x4 x5 x6 x7 := by
  have h1 : val_main_v29 (F := Ideal) x0 x1 x2 x3 x4 = hiddenFeatures x0 x1 x2 x3 x4 := by
    rw [hidden_eq, agg1_eq, ← scaled128_eq]
    rfl
  rw [result_eq, agg2_eq, h1, ← scaled64_eq]
  rfl

/-- The reference's run with its result named: every weakly fair execution terminates with the result at
    `outputScores` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
        = outputScores (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun r h c => ⟨(h c).1.trans ((val_main_v55_eq m c).trans (ref_out _ _ _ _ _ _ _ _)), (h c).2⟩)
    (Cert.ReferenceIdeal.ValueP.run (F := Ideal) m ρ)

end Cert.ReferenceIdeal.RefValue

end
-- ==== Proof.lean ====
/-
  Two graph-convolution layers with mean aggregation, a rectifier between them and a log-softmax at the end: the Pallas
  program against its jnp reference, over the extended reals.

  Both programs gather each edge's source row and add it into the edge's destination row (the neighbour sum), and count
  each node's incoming edges clamped below at one (the degree d). The kernel program multiplies the neighbour sum by 1/d and
  runs each layer as a pallas_call over 20 blocks of 5000 rows; the reference divides the neighbour sum by d and runs each
  layer over all rows with general products. On the extended reals x · (1/d) and x / d are both x · d⁻¹ because d is not
  zero, a layer acts on every row by itself, and the matrix unit's product into zeros, the host's general product, the lane
  reductions and the host reductions are the same sums and maxima; so both programs end at one function of the arguments,
  `outputScores`.

  The three frames: the kernel programs' are the generated ones; the reference's is its run with the result dropped.
  The idealization rewrote nothing, so `preserves` is trivial. `algebraic`: the kernel program's run ends with the result
  array at `outputScores` of its arguments (each region's result array read block by block, the host operations between
  them read back through the boundaries), the reference's run ends at the same function of its arguments (read operation
  by operation), and the arguments agree.
-/
import proofs.«166646_j46772193853511_1_alg».proof.Defs
import proofs.«166646_j46772193853511_1_alg».proof.Proof.Gen.Kernel
import proofs.«166646_j46772193853511_1_alg».proof.Proof.Gen.Kernel.Skeleton
import proofs.«166646_j46772193853511_1_alg».proof.Proof.Gen.Kernel.Launch
import proofs.«166646_j46772193853511_1_alg».proof.Proof.Gen.Kernel.Points
import proofs.«166646_j46772193853511_1_alg».proof.Proof.Gen.Kernel.Frame
import proofs.«166646_j46772193853511_1_alg».proof.Proof.Gen.KernelIdeal
import proofs.«166646_j46772193853511_1_alg».proof.Proof.Gen.KernelIdeal.Skeleton
import proofs.«166646_j46772193853511_1_alg».proof.Proof.Gen.KernelIdeal.Launch
import proofs.«166646_j46772193853511_1_alg».proof.Proof.Gen.KernelIdeal.Points
import proofs.«166646_j46772193853511_1_alg».proof.Proof.Gen.KernelIdeal.Frame
import proofs.«166646_j46772193853511_1_alg».proof.Proof.Gen.ReferenceIdeal
import proofs.«166646_j46772193853511_1_alg».proof.Proof.Gen.Pre_finite_inputs
import proofs.«166646_j46772193853511_1_alg».proof.Proof.KernelHost
import proofs.«166646_j46772193853511_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end at `outputScores` of their arguments, and the arguments agree. -/
theorem algebraic : Cert.algebraic_KernelIdeal_ReferenceIdeal := by
  intro m ρ m' ρ' _ hagree
  refine ⟨_, Cert.KernelIdeal.HostK.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
